-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x1024 .f32) (main_arg1 : FVec F S2048x1024 .f32) (main_arg2 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2048 : Shape := ⟨2, ![16384, 2048]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S2048x1024_S2048_d1 : S2048x1024.ReducesTo [1] S2048
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x1024.size a
  hwx0_1 : ∀ i : grid0.Coords, EltTy.bits .f32 = 32 ∨ (Rect.block (s := S2048x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x2048.size a
  hwx0_5 : ∀ i : grid0.Coords, EltTy.bits .f32 = 32 ∨ (Rect.block (s := S16384x2048) S512x512.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x1024 : Shape := ⟨2, ![2048, 1024]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S2048, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S2048x1024_S2048_d1 : S2048x1024.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x1024_S2048x1024_S16384x2048_1_1_0_0_n_n_wf : DotDims.WF S16384x1024 S2048x1024 S16384x2048 [1] [1] [0] [0] [] []

variable [Facts₀]

def dot_S16384x1024_S2048x1024_S16384x2048_1_1_0_0_n_n : DotDims S16384x1024 S2048x1024 S16384x2048 where
  lhsContracting := [1]
  rhsContracting := [1]
  lhsNonContracting := [0]
  rhsNonContracting := [0]
  lhsBatch := []
  rhsBatch := []
  wf := dot_S16384x1024_S2048x1024_S16384x2048_1_1_0_0_n_n_wf

class Facts : Prop extends Facts₀ where

variable [Facts]
-- ==== Proof.RbfSpec.lean ====
/-
  The radial-basis activation as one function of the three argument arrays, over the extended reals.

  For a point `n` (a row of `x`, 1024 entries), a centre `j` (a row of `centres`) and its width `l j`
  (the logarithm of the centre's sigma):

    sqDist n j = max ((|x_n|² + |c_j|²) − 2 · ⟨x_n, c_j⟩) 0          the clamped squared distance, by the GEMM identity
    act    n j = exp ((0 − sqDist n j) · exp (−2 · l j))            one side scales the squared distance by sigma⁻²
    actDiv n j = exp (−((√(sqDist n j) / exp (l j))²))             the other divides the distance by sigma and squares

  The two agree wherever `l j` is a real number: then `exp (l j)` is a positive real `e`, and for an extended real
  `s ≥ 0` both `(0 − s) · e⁻²` and `−((√s / e) · (√s / e))` are `−s / e²` — over the reals because `√s · √s = s`, and
  at `s = +∞` because both sides are `−∞`. Nothing is asked of `x` or of the centres: the clamp alone makes `s ≥ 0`.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The points: 16384 rows of 1024 features. -/
abbrev Pts : Shape := ⟨2, ![16384, 1024]⟩
/-- The centres: 2048 rows of 1024 features. -/
abbrev Ctr : Shape := ⟨2, ![2048, 1024]⟩
/-- One logarithm of a width per centre. -/
abbrev Wid : Shape := ⟨1, ![2048]⟩
/-- One activation per point and centre. -/
abbrev Act : Shape := ⟨2, ![16384, 2048]⟩

/-! ## The scalar law -/

/-- The word of `-2.0` denotes the real `-2`. -/
theorem ofBits_negTwo : Ideal.ofBits .f32 0xC0000000#32 = ((-2 : ℝ) : EReal) := by
  simp [Ideal.ofBits, Ideal.ieee, -EReal.coe_mul]; norm_num

/-- `e^(-2l) = (1/e^l) · (1/e^l)`. -/
theorem exp_neg_two_mul (l : ℝ) : Real.exp (-2 * l) = (1 / Real.exp l) * (1 / Real.exp l) := by
  rw [show -2 * l = -l + -l by ring, Real.exp_add, Real.exp_neg]; ring

/-- Scaling a nonnegative squared distance by `sigma⁻² = exp (−2 l)` and negating it, against dividing its square root by
    `sigma = exp l`, squaring and negating: equal on the extended reals for every real `l`, at `s = +∞` included. -/
theorem scaled_eq_divided (s : EReal) (hs : 0 ≤ s) (l : ℝ) :
    (Ideal.ofBits .f32 0x00000000#32 - s) * Ideal.exp (Ideal.ofBits .f32 0xC0000000#32 * (l : EReal))
      = -(Ideal.div (Ideal.sqrt s) (Ideal.exp (l : EReal)) * Ideal.div (Ideal.sqrt s) (Ideal.exp (l : EReal))) := by
  have he : Real.exp l ≠ 0 := (Real.exp_pos l).ne'
  have hpos : (0 : ℝ) < 1 / Real.exp l := by positivity
  rw [Ideal.ofBits_zero_f32, ofBits_negTwo, ← EReal.coe_mul, Ideal.exp_coe, Ideal.exp_coe, Ideal.div_coe he, exp_neg_two_mul]
  induction s using EReal.rec with
  | bot => exact absurd hs (by simp)
  | coe r =>
    have hr : 0 ≤ r := by exact_mod_cast hs
    rw [Ideal.sqrt_coe, if_neg (not_lt.mpr hr)]
    rw [← EReal.coe_zero, ← EReal.coe_sub, ← EReal.coe_mul, ← EReal.coe_mul, ← EReal.coe_mul, ← EReal.coe_neg]
    congr 1
    have := Real.mul_self_sqrt hr
    nlinarith [this]
  | top =>
    rw [Ideal.sqrt_top, EReal.top_mul_coe_of_pos hpos, EReal.top_mul_top, EReal.neg_top, EReal.coe_mul,
      sub_eq_add_neg, EReal.neg_top, EReal.add_bot, EReal.bot_mul_of_pos]
    exact_mod_cast mul_pos hpos hpos

/-! ## The activation, index by index -/

/-- The squared norm of point `n`: the host's sum from `0` of the squares of its 1024 features. -/
def ptNormSq (x : Pts.Idx → EReal) (n : Fin 16384) : EReal :=
  Ideal.ofBits .f32 0x00000000#32 + ∑ k : Fin 1024, x (ix2 n k) * x (ix2 n k)

/-- The squared norm of centre `j`. -/
def ctrNormSq (c : Ctr.Idx → EReal) (j : Fin 2048) : EReal :=
  Ideal.ofBits .f32 0x00000000#32 + ∑ k : Fin 1024, c (ix2 j k) * c (ix2 j k)

/-- The inner product of point `n` and centre `j`. -/
def inner (x : Pts.Idx → EReal) (c : Ctr.Idx → EReal) (n : Fin 16384) (j : Fin 2048) : EReal :=
  ∑ k : Fin 1024, x (ix2 n k) * c (ix2 j k)

/-- The squared distance from point `n` to centre `j` by the GEMM identity, clamped at `0`. -/
def sqDist (x : Pts.Idx → EReal) (c : Ctr.Idx → EReal) (n : Fin 16384) (j : Fin 2048) : EReal :=
  max (ptNormSq x n + ctrNormSq c j - Ideal.ofBits .f32 0x40000000#32 * inner x c n j) (Ideal.ofBits .f32 0x00000000#32)

theorem sqDist_nonneg (x : Pts.Idx → EReal) (c : Ctr.Idx → EReal) (n : Fin 16384) (j : Fin 2048) : 0 ≤ sqDist x c n j := by
  rw [sqDist, Ideal.ofBits_zero_f32]; exact le_max_right _ _

/-- The activation with the squared distance scaled by `sigma⁻² = exp (−2 l)`. -/
def act (x : Pts.Idx → EReal) (c : Ctr.Idx → EReal) (l : Wid.Idx → EReal) : Act.Idx → EReal := fun i =>
  Ideal.exp ((Ideal.ofBits .f32 0x00000000#32 - sqDist x c (i 0) (i 1)) * Ideal.exp (Ideal.ofBits .f32 0xC0000000#32 * l (ix1 (i 1))))

/-- The activation with the distance divided by `sigma = exp l`, then squared. -/
def actDiv (x : Pts.Idx → EReal) (c : Ctr.Idx → EReal) (l : Wid.Idx → EReal) : Act.Idx → EReal := fun i =>
  Ideal.exp (-(Ideal.div (Ideal.sqrt (sqDist x c (i 0) (i 1))) (Ideal.exp (l (ix1 (i 1))))
    * Ideal.div (Ideal.sqrt (sqDist x c (i 0) (i 1))) (Ideal.exp (l (ix1 (i 1))))))

/-- Where every logarithm of a width is a real number the two forms are one array. -/
theorem actDiv_eq_act (x : Pts.Idx → EReal) (c : Ctr.Idx → EReal) (l : Wid.Idx → EReal)
    (hl : ∀ j, ∃ r : ℝ, l j = (r : EReal)) : actDiv x c l = act x c l := by
  funext i
  obtain ⟨r, hr⟩ := hl (ix1 (i 1))
  unfold actDiv act
  rw [hr, scaled_eq_divided _ (sqDist_nonneg x c (i 0) (i 1)) r]

end Cert.Rbf

end
-- ==== Proof.RbfRef.lean ====
/-
  The reference's result, read one operation at a time, is `Cert.Rbf.actDiv` of its three arguments: at a point `n` and a
  centre `j` the host's two row sums are the squared norms, its `dot_general` the inner product (both operands contracted
  over their feature axis), and the remaining operations are pointwise; the broadcasts only route `n` to the points' side
  and `j` to the centres' and the widths' side.
-/
import proofs.«166026_j32100585570665_1_alg».proof.Proof.Gen.ReferenceIdeal.Read
import proofs.«166026_j32100585570665_1_alg».proof.Proof.RbfSpec

noncomputable section

namespace Cert.ReferenceIdeal.RbfRef

open Cert.ReferenceIdeal Cert.ReferenceIdeal.Gen Cert.ReferenceIdeal.Read Idealize.ShloMosaic Idealize.ShloMosaic.ValueIdx
open Cert.Rbf

/-- Through the two broadcasts, the row the points' sum of squares is read at is the activation's point. -/
theorem ptRow (i : S16384x2048.Idx) (k : Fin 1024) :
    idx_main_v1 (idx_main_v2 (idx_main_v7 i)) k = ix2 (i 0) k :=
  funext fun a => Fin.ext (by match a with | ⟨0, _⟩ => rfl | ⟨1, _⟩ => rfl)

/-- Through the two broadcasts, the row the centres' sum of squares is read at is the activation's centre. -/
theorem ctrRow (i : S16384x2048.Idx) (k : Fin 1024) :
    idx_main_v4 (idx_main_v6 (idx_main_v8 i)) k = ix2 (i 1) k :=
  funext fun a => Fin.ext (by match a with | ⟨0, _⟩ => rfl | ⟨1, _⟩ => rfl)

/-- The contraction's left operand is read along the point's row, -/
theorem dotPt (i : S16384x2048.Idx) (k : Fin 1024) : lidx_main_v5 i k = ix2 (i 0) k :=
  funext fun a => Fin.ext (by match a with | ⟨0, _⟩ => rfl | ⟨1, _⟩ => rfl)

/-- and its right operand along the centre's row. -/
theorem dotCtr (i : S16384x2048.Idx) (k : Fin 1024) : ridx_main_v5 i k = ix2 (i 1) k :=
  funext fun a => Fin.ext (by match a with | ⟨0, _⟩ => rfl | ⟨1, _⟩ => rfl)

/-- Through the two broadcasts, the width is the activation's centre's. -/
theorem widAt (i : S16384x2048.Idx) : idx_main_v17 (idx_main_v18 i) = ix1 (i 1) :=
  funext fun a => Fin.ext (by match a with | ⟨0, _⟩ => rfl)

/-- The reference's last stage is the activation with the distance divided by sigma. -/
theorem result_eq (x : (⟨S16384x1024, .f32⟩ : BufTy).Contents (Elt Ideal)) (c : (⟨S2048x1024, .f32⟩ : BufTy).Contents (Elt Ideal))
    (l : (⟨S2048, .f32⟩ : BufTy).Contents (Elt Ideal)) :
    val_main_v22 (F := Ideal) x c l = actDiv x c l := by
  funext i
  simp only [val_main_v22_apply, val_main_v21_apply, val_main_v20_apply, val_main_v19_apply, val_main_v15_apply,
    val_main_v14_apply, val_main_v13_apply, val_main_cst_2_apply, val_main_v12_apply, val_main_v9_apply,
    val_main_v7_apply, val_main_v2_apply, val_main_v1_apply, val_main_cst_apply, val_main_v0_apply,
    val_main_v8_apply, val_main_v6_apply, val_main_v4_apply, val_main_cst_0_apply, val_main_v3_apply,
    val_main_v11_apply, val_main_v10_apply, val_main_cst_1_apply, val_main_v5_apply,
    val_main_v18_apply, val_main_v17_apply, val_main_v16_apply,
    ptRow, ctrRow, dotPt, dotCtr, widAt,
    Ideal.hostUnary_exp_def, Ideal.hostUnary_sqrt_def, Ideal.hostNegf_def, Ideal.negf_def, Ideal.mulf_def, Ideal.hostDivf_def,
    Ideal.maximumf_def, Ideal.subf_def, Ideal.addf_def, Ideal.ofBits_def]
  rfl

end Cert.ReferenceIdeal.RbfRef

end
-- ==== Proof.RbfBody.lean ====
/-
  The kernel body's one store, read at a coordinate `(p, q)` of its 512 × 512 block, as a function of the five blocks it
  loads: a block of points, a block of centres, the points' squared norms as a column, the centres' squared norms and the
  widths as rows. The matrix unit's product of the two feature blocks, both contracted over their feature axis into a
  zero accumulator, is at `(p, q)` the inner product of point `p` and centre `q` of the blocks; the column broadcast
  reads row `p`, the row broadcasts read column `q`; a cast to the same shape and the narrowing to bf16 change nothing
  at the ideal values.
-/
import proofs.«166026_j32100585570665_1_alg».proof.Proof.Gen.KernelIdeal.Skeleton
import proofs.«166026_j32100585570665_1_alg».proof.Proof.RbfSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RbfBody

open Cert.KernelIdeal Cert.KernelIdeal.Gen Idealize.ShloMosaic Idealize.ShloMosaic.ValueIdx

/-! ## A column broadcast over many columns -/

/-- An `[a, 1]` array broadcast to `[a, b]` reads, at `(p, q)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The matrix product at a coordinate -/

theorem gemm_lhs_0 (i : S512x512.Idx) (r : dot_S512x1024_S512x1024_S512x512_1_1_0_0_n_n.contr.Idx) :
    (dot_S512x1024_S512x1024_S512x512_1_1_0_0_n_n.lhsIdx i r 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem gemm_lhs_1 (i : S512x512.Idx) (r : dot_S512x1024_S512x1024_S512x512_1_1_0_0_n_n.contr.Idx) :
    (dot_S512x1024_S512x1024_S512x512_1_1_0_0_n_n.lhsIdx i r 1).val = (r ⟨0, by decide⟩).val :=
  dot_S512x1024_S512x1024_S512x512_1_1_0_0_n_n.lhsIdx_val_of_single rfl i r
theorem gemm_rhs_0 (i : S512x512.Idx) (r : dot_S512x1024_S512x1024_S512x512_1_1_0_0_n_n.contr.Idx) :
    (dot_S512x1024_S512x1024_S512x512_1_1_0_0_n_n.rhsIdx i r 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem gemm_rhs_1 (i : S512x512.Idx) (r : dot_S512x1024_S512x1024_S512x512_1_1_0_0_n_n.contr.Idx) :
    (dot_S512x1024_S512x1024_S512x512_1_1_0_0_n_n.rhsIdx i r 1).val = (r ⟨0, by decide⟩).val :=
  dot_S512x1024_S512x1024_S512x512_1_1_0_0_n_n.rhsIdx_val_of_single rfl i r

/-- Both blocks contracted over their 1024 features into a zero accumulator: at `(p, q)` the inner product of row `p` of
    the left block and row `q` of the right. -/
theorem gemm_apply (u w : FVec Ideal S512x1024 .bf16) (p q : Fin 512) :
    matmul dot_S512x1024_S512x1024_S512x512_1_1_0_0_n_n none u w (constant S512x512 .f32 0x00000000#32) (ix2 p q)
      = ∑ k : Fin 1024, u (ix2 p k) * w (ix2 q k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p q) ((contrEquiv1 dot_S512x1024_S512x1024_S512x512_1_1_0_0_n_n 1024 rfl rfl).symm k) = ix2 p k := funext fun a => Fin.ext (by
    match a with
    | ⟨0, _⟩ => exact gemm_lhs_0 _ _
    | ⟨1, _⟩ => exact (gemm_lhs_1 _ _).trans hk)
  have er : dot_S512x1024_S512x1024_S512x512_1_1_0_0_n_n.rhsIdx (ix2 p q) ((contrEquiv1 dot_S512x1024_S512x1024_S512x512_1_1_0_0_n_n 1024 rfl rfl).symm k) = ix2 q k := funext fun a => Fin.ext (by
    match a with
    | ⟨0, _⟩ => exact gemm_rhs_0 _ _
    | ⟨1, _⟩ => exact (gemm_rhs_1 _ _).trans hk)
  rw [el, er]

/-! ## The store's value at a coordinate -/

/-- The body's store at `(p, q)`: the clamped `|x_p|² + |c_q|² − 2 ⟨x_p, c_q⟩` negated, scaled by `exp (−2 l_q)`, exponentiated. -/
theorem store_apply (x0 x1 : Vec Ideal S512x1024 .f32) (x2 : Vec Ideal S512x1 .f32) (x3 x4 : Vec Ideal S1x512 .f32) (p q : Fin 512) :
    k0_pay1 (F := Ideal) x0 x1 x2 x3 x4 (ix2 p q)
      = Ideal.exp ((Ideal.ofBits .f32 0x00000000#32
            - max (x2 (ix2 p (0 : Fin 1)) + x3 (ix2 (0 : Fin 1) q)
                - Ideal.ofBits .f32 0x40000000#32 * ∑ k : Fin 1024, x0 (ix2 p k) * x1 (ix2 q k)) (Ideal.ofBits .f32 0x00000000#32))
          * Ideal.exp (Ideal.ofBits .f32 0xC0000000#32 * x4 (ix2 (0 : Fin 1) q))) := by
  unfold k0_pay1
  rw [shapeCast_self, shapeCast_self, shapeCast_self]
  simp only [exp, mulf, subf, addf, maximumf, broadcast, broadcastTo_a1_ab_apply, broadcastTo_1b_ab_apply, gemm_apply,
    truncf_apply, Ideal.exp_def, Ideal.mulf_def, Ideal.subf_def, Ideal.addf_def, Ideal.maximumf_def, Ideal.ofBits_def]

/-- So when the five loaded blocks hold, along row `p` and column `q`, point `n`'s features and squared norm and centre
    `j`'s features, squared norm and width, the store at `(p, q)` is the activation of point `n` at centre `j`. -/
theorem store_eq_act (X : Cert.Rbf.Pts.Idx → EReal) (C : Cert.Rbf.Ctr.Idx → EReal) (L : Cert.Rbf.Wid.Idx → EReal)
    (x0 x1 : Vec Ideal S512x1024 .f32) (x2 : Vec Ideal S512x1 .f32) (x3 x4 : Vec Ideal S1x512 .f32)
    (p q : Fin 512) (n : Fin 16384) (j : Fin 2048)
    (h0 : ∀ k : Fin 1024, x0 (ix2 p k) = X (ix2 n k)) (h1 : ∀ k : Fin 1024, x1 (ix2 q k) = C (ix2 j k))
    (h2 : x2 (ix2 p (0 : Fin 1)) = Cert.Rbf.ptNormSq X n) (h3 : x3 (ix2 (0 : Fin 1) q) = Cert.Rbf.ctrNormSq C j)
    (h4 : x4 (ix2 (0 : Fin 1) q) = L (ix1 j)) :
    k0_pay1 (F := Ideal) x0 x1 x2 x3 x4 (ix2 p q) = Cert.Rbf.act X C L (ix2 n j) := by
  rw [store_apply, h2, h3, h4]
  simp only [h0, h1]
  rfl

end Cert.KernelIdeal.RbfBody

end
-- ==== Proof.RbfArray.lean ====
/-
  The kernel program's result array is the activation array `Cert.Rbf.act` of its three arguments.

  Before the region the host writes the points' squared norms as a 16384 × 1 column (a sum along the features from 0,
  broadcast to a column), the centres' squared norms as a 1 × 2048 row (the same sum, recast) and the widths as a
  1 × 2048 row (recast). The region runs a 32 × 4 grid; at the point of block row `a` and block column `b` it loads rows
  `512a …` of the points and of their norms' column, rows `512b …` of the centres, and columns `512b …` of the two rows,
  and writes back the 512 × 512 block `(a, b)` of the result. By the body's value at a coordinate (Proof/RbfBody.lean) that
  block is the activation array's block `(a, b)`; the 128 blocks tile the 16384 × 2048 array (the block of an index is the
  one whose row and column are the coordinates' quotients by 512), so the whole array is the activation array.
-/
import proofs.«166026_j32100585570665_1_alg».proof.Proof.Gen.KernelIdeal.Value
import proofs.«166026_j32100585570665_1_alg».proof.Proof.RbfSpec
import proofs.«166026_j32100585570665_1_alg».proof.Proof.RbfBody
import Idealize.ShloMosaic.Lib.StableHlo.Run

noncomputable section

namespace Cert.KernelIdeal.RbfArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Rbf

variable (m : (ℓ : Loc nD τ sig) → Buf (Elt Ideal) ℓ) (ρ : Dev nD → PrngReg)

/-- The points, the centres and the widths as launched on core `c`. -/
abbrev pts (c : Dev nD) : Pts.Idx → EReal := m ((c : Thread nD τ).loc main_arg0)
abbrev ctrs (c : Dev nD) : Ctr.Idx → EReal := m ((c : Thread nD τ).loc main_arg1)
abbrev wids (c : Dev nD) : Wid.Idx → EReal := m ((c : Thread nD τ).loc main_arg2)

/-! ## What the host wrote before the region -/

theorem V_ptNorms (c : Dev nD) :
    (V m c main_v2 : S16384x1.Idx → EReal)
      = broadcastInDim S16384x1 ![0] bcast_S16384_S16384x1_0
          (Host.reduceAdd (mulf (pts m c) (pts m c)) (constant (F := Ideal) S_ .f32 0x00000000#32) reducesTo_S16384x1024_S16384_d1 h_S_) := by
  dsimp only [V, hostOps0]; after_results

theorem V_ctrNorms (c : Dev nD) :
    (V m c main_v5 : S1x2048.Idx → EReal)
      = shapeCast S1x2048 (Host.reduceAdd (mulf (ctrs m c) (ctrs m c)) (constant (F := Ideal) S_ .f32 0x00000000#32) reducesTo_S2048x1024_S2048_d1 h_S_) shapeCasts_S2048_S1x2048 := by
  dsimp only [V, hostOps0]; after_results; rfl

theorem V_wids (c : Dev nD) :
    (V m c main_v6 : S1x2048.Idx → EReal) = shapeCast S1x2048 (wids m c) shapeCasts_S2048_S1x2048 := by
  dsimp only [V, hostOps0]; after_results; rfl

/-! ## Those arrays read at an index -/

/-- The host's sum of a points-shaped array along the features from `0`, at row `n`. -/
theorem ptSum_apply (y : FVec Ideal S16384x1024 .f32) (n : Fin 16384) :
    Host.reduceAdd y (constant (F := Ideal) S_ .f32 0x00000000#32) reducesTo_S16384x1024_S16384_d1 h_S_ (ix1 n)
      = Ideal.ofBits .f32 0x00000000#32 + ∑ k : Fin 1024, y (ix2 n k) := by
  simp only [Host.reduceAdd, Ideal.hostReduceAdd_def]
  rw [Ideal.hostReduceAdd_single reducesTo_S16384x1024_S16384_d1 (by decide), constant_apply]
  refine congrArg (_ + ·) (Finset.sum_congr rfl fun k _ => ?_)
  exact congrArg y (funext fun a => Fin.ext (by match a with | ⟨0, _⟩ => rfl | ⟨1, _⟩ => rfl))

/-- The same of a centres-shaped array, at row `j`. -/
theorem ctrSum_apply (y : FVec Ideal S2048x1024 .f32) (j : Fin 2048) :
    Host.reduceAdd y (constant (F := Ideal) S_ .f32 0x00000000#32) reducesTo_S2048x1024_S2048_d1 h_S_ (ix1 j)
      = Ideal.ofBits .f32 0x00000000#32 + ∑ k : Fin 1024, y (ix2 j k) := by
  simp only [Host.reduceAdd, Ideal.hostReduceAdd_def]
  rw [Ideal.hostReduceAdd_single reducesTo_S2048x1024_S2048_d1 (by decide), constant_apply]
  refine congrArg (_ + ·) (Finset.sum_congr rfl fun k _ => ?_)
  exact congrArg y (funext fun a => Fin.ext (by match a with | ⟨0, _⟩ => rfl | ⟨1, _⟩ => rfl))

/-- The column the region finds as its third operand holds the points' squared norms. -/
theorem V_ptNorms_apply (c : Dev nD) (n : Fin 16384) :
    (V m c main_v2 : S16384x1.Idx → EReal) (ix2 n (0 : Fin 1)) = ptNormSq (pts m c) n := by
  rw [V_ptNorms, broadcastInDim_apply _ bcast_S16384_S16384x1_0 _ (ix2 n (0 : Fin 1)) (ix1 n) (fun a => match a with
    | ⟨0, _⟩ => by show n.val = if (16384 : Nat) = 1 then 0 else n.val; rw [if_neg (by decide)]), ptSum_apply]
  rfl

/-- The row it finds as its fourth operand holds the centres' squared norms. -/
theorem V_ctrNorms_apply (c : Dev nD) (j : Fin 2048) :
    (V m c main_v5 : S1x2048.Idx → EReal) (ix2 (0 : Fin 1) j) = ctrNormSq (ctrs m c) j := by
  rw [V_ctrNorms, shapeCast_a_1a_apply, ctrSum_apply]
  rfl

/-- The row it finds as its fifth operand holds the widths. -/
theorem V_wids_apply (c : Dev nD) (j : Fin 2048) :
    (V m c main_v6 : S1x2048.Idx → EReal) (ix2 (0 : Fin 1) j) = wids m c (ix1 j) := by
  rw [V_wids, shapeCast_a_1a_apply]

/-! ## The blocks a grid point loads -/

theorem hz : (![0, 0] : Fin 2 → Nat) = fun _ => 0 := funext fun a => by fin_cases a <;> rfl

/-- The printed index maps, decided over the 32 × 4 grid: the points' block and their norms' move with the output's block
    row, the centres' block, their norms' and the widths' with its block column, and the other block index of each is `0`. -/
theorem blockIdx : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 31 ∧ win0_5.index t (1 : Fin 2) ≤ 3 :=
  (by decide +kernel : ∀ t : Fin grid0.N, _)

/-- Every block of the output is some grid point's. -/
theorem blockOnto : ∀ (a : Fin 32) (b : Fin 4), ∃ t : Fin cfg0.N, win0_5.index t = ![a.val, b.val] :=
  (by decide +kernel : ∀ (a : Fin 32) (b : Fin 4), ∃ t : Fin grid0.N, win0_5.index t = ![a.val, b.val])

/-- Row `p` of the points' block at point `t` is point `n = 512 · (block row) + p`. -/
theorem ptsBlock_apply (c : Dev nD) (t : Fin cfg0.N) (p : Fin 512) (k : Fin 1024) (n : Fin 16384)
    (hn : n.val = win0_5.index t (0 : Fin 2) * 512 + p.val) :
    (iblk m c 0 t : Vec Ideal S512x1024 .f32) (ix2 p k) = pts m c (ix2 n k) := by
  obtain ⟨e0, e1, -⟩ := blockIdx t
  unfold iblk
  rw [View.read_apply]
  show V m c main_arg0 _ = _
  rw [V_main_arg0 m c]
  refine congrArg (m ((c : Thread nD τ).loc main_arg0)) (funext fun a => Fin.ext ?_)
  match a with
  | ⟨0, _⟩ => show win0_0.index t (0 : Fin 2) * 512 + 1 * p.val = n.val; omega
  | ⟨1, _⟩ => show win0_0.index t (1 : Fin 2) * 1024 + 1 * k.val = k.val; omega

/-- Row `q` of the centres' block at point `t` is centre `j = 512 · (block column) + q`. -/
theorem ctrsBlock_apply (c : Dev nD) (t : Fin cfg0.N) (q : Fin 512) (k : Fin 1024) (j : Fin 2048)
    (hj : j.val = win0_5.index t (1 : Fin 2) * 512 + q.val) :
    (iblk m c 1 t : Vec Ideal S512x1024 .f32) (ix2 q k) = ctrs m c (ix2 j k) := by
  obtain ⟨-, -, e0, e1, -⟩ := blockIdx t
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t (0 : Fin 2) * 512 + 1 * q.val = j.val; omega
  | ⟨1, _⟩ => show win0_1.index t (1 : Fin 2) * 1024 + 1 * k.val = k.val; omega

/-- Row `p` of the norms' column block is point `n`'s squared norm. -/
theorem ptNormBlock_apply (c : Dev nD) (t : Fin cfg0.N) (p : Fin 512) (n : Fin 16384)
    (hn : n.val = win0_5.index t (0 : Fin 2) * 512 + p.val) :
    (iblk m c 2 t : Vec Ideal S512x1 .f32) (ix2 p (0 : Fin 1)) = ptNormSq (pts m c) n := by
  obtain ⟨-, -, -, -, e0, e1, -⟩ := blockIdx t
  unfold iblk
  rw [View.read_apply, ← V_ptNorms_apply m c n]
  show (V m c main_v2 : S16384x1.Idx → EReal) _ = _
  refine congrArg (V m c main_v2 : S16384x1.Idx → EReal) (funext fun a => Fin.ext ?_)
  match a with
  | ⟨0, _⟩ => show win0_2.index t (0 : Fin 2) * 512 + 1 * p.val = n.val; omega
  | ⟨1, _⟩ => show win0_2.index t (1 : Fin 2) * 1 + 1 * 0 = 0; omega

/-- Column `q` of the centres' norms' row block is centre `j`'s squared norm. -/
theorem ctrNormBlock_apply (c : Dev nD) (t : Fin cfg0.N) (q : Fin 512) (j : Fin 2048)
    (hj : j.val = win0_5.index t (1 : Fin 2) * 512 + q.val) :
    (iblk m c 3 t : Vec Ideal S1x512 .f32) (ix2 (0 : Fin 1) q) = ctrNormSq (ctrs m c) j := by
  obtain ⟨-, -, -, -, -, -, e0, e1, -⟩ := blockIdx t
  unfold iblk
  rw [View.read_apply, ← V_ctrNorms_apply m c j]
  show (V m c main_v5 : S1x2048.Idx → EReal) _ = _
  refine congrArg (V m c main_v5 : S1x2048.Idx → EReal) (funext fun a => Fin.ext ?_)
  match a with
  | ⟨0, _⟩ => show win0_3.index t (0 : Fin 2) * 1 + 1 * 0 = 0; omega
  | ⟨1, _⟩ => show win0_3.index t (1 : Fin 2) * 512 + 1 * q.val = j.val; omega

/-- Column `q` of the widths' row block is centre `j`'s width. -/
theorem widBlock_apply (c : Dev nD) (t : Fin cfg0.N) (q : Fin 512) (j : Fin 2048)
    (hj : j.val = win0_5.index t (1 : Fin 2) * 512 + q.val) :
    (iblk m c 4 t : Vec Ideal S1x512 .f32) (ix2 (0 : Fin 1) q) = wids m c (ix1 j) := by
  obtain ⟨-, -, -, -, -, -, -, -, e0, e1, -⟩ := blockIdx t
  unfold iblk
  rw [View.read_apply, ← V_wids_apply m c j]
  show (V m c main_v6 : S1x2048.Idx → EReal) _ = _
  refine congrArg (V m c main_v6 : S1x2048.Idx → EReal) (funext fun a => Fin.ext ?_)
  match a with
  | ⟨0, _⟩ => show win0_4.index t (0 : Fin 2) * 1 + 1 * 0 = 0; omega
  | ⟨1, _⟩ => show win0_4.index t (1 : Fin 2) * 512 + 1 * q.val = j.val; omega

/-! ## What a grid point writes back -/

/-- The output's staging buffer after the body at point `t`, at `(p, q)`: the activation of point `n` at centre `j`. -/
theorem outBlock_apply (c : Dev nD) (t : Fin cfg0.N) (p q : Fin 512) (n : Fin 16384) (j : Fin 2048)
    (hn : n.val = win0_5.index t (0 : Fin 2) * 512 + p.val) (hj : j.val = win0_5.index t (1 : Fin 2) * 512 + q.val) :
    out0_5 (F := Ideal) (iblk m c 0 t) (iblk m c 1 t) (iblk m c 2 t) (iblk m c 3 t) (iblk m c 4 t) (ix2 p q)
      = act (pts m c) (ctrs m c) (wids m c) (ix2 n j) := by
  unfold out0_5
  rw [View.canon_unit_zero hz]
  simp only [View.ld_unit_zero (S := S512x1024) hz, View.ld_unit_zero (S := S512x1) hz, View.ld_unit_zero (S := S1x512) hz]
  exact Cert.KernelIdeal.RbfBody.store_eq_act (pts m c) (ctrs m c) (wids m c)
    (iblk m c 0 t) (iblk m c 1 t) (iblk m c 2 t) (iblk m c 3 t) (iblk m c 4 t) p q n j
    (fun k => ptsBlock_apply m c t p k n hn) (fun k => ctrsBlock_apply m c t q k j hj)
    (ptNormBlock_apply m c t p n hn) (ctrNormBlock_apply m c t q j hj) (widBlock_apply m c t q j hj)

/-- The same at any index `y` of the block: the point is `512 · (block row) + y₀`, the centre `512 · (block column) + y₁`. -/
theorem outBlock_eq (c : Dev nD) (t : Fin cfg0.N) (b0 : win0_5.index t (0 : Fin 2) ≤ 31) (b1 : win0_5.index t (1 : Fin 2) ≤ 3)
    (y : S512x512.Idx) :
    out0_5 (F := Ideal) (iblk m c 0 t) (iblk m c 1 t) (iblk m c 2 t) (iblk m c 3 t) (iblk m c 4 t) y
      = act (pts m c) (ctrs m c) (wids m c)
          (ix2 (⟨win0_5.index t (0 : Fin 2) * 512 + (y 0).val, by have := idx2_lt0 y; omega⟩ : Fin 16384)
            (⟨win0_5.index t (1 : Fin 2) * 512 + (y 1).val, by have := idx2_lt1 y; omega⟩ : Fin 2048)) := by
  obtain ⟨p, q, rfl⟩ : ∃ (p q : Fin 512), y = ix2 p q := ⟨y 0, y 1, eq_ix2 y⟩
  exact outBlock_apply m c t p q _ _ rfl rfl

/-- What point `t` writes back is its block of the activation array. -/
theorem flushed_eq (c : Dev nD) (t : Fin cfg0.N) :
    (dats m 0 c).flushed 5 t = ((cfg0.win 5).blk t).view.read (Elt Ideal) (act (pts m c) (ctrs m c) (wids m c)) := by
  rw [Cert.KernelIdeal.Value.flushed5]
  obtain ⟨-, -, -, -, -, -, -, -, -, -, b0, b1⟩ := blockIdx t
  funext y
  rw [View.read_apply]
  refine (outBlock_eq m c t b0 b1 ((cfg0.win 5).xinj (grid0.coords t) y)).trans ?_
  refine congrArg (act (pts m c) (ctrs m c) (wids m c)) (funext fun a => Fin.ext ?_)
  match a with
  | ⟨0, _⟩ => show win0_5.index t (0 : Fin 2) * 512 + (y 0).val = win0_5.index t (0 : Fin 2) * 512 + 1 * (y 0).val; omega
  | ⟨1, _⟩ => show win0_5.index t (1 : Fin 2) * 512 + (y 1).val = win0_5.index t (1 : Fin 2) * 512 + 1 * (y 1).val; omega

/-! ## The blocks tile the array -/

/-- An index of the activation array is in point `t`'s block iff each coordinate is in the block's range on its axis. -/
theorem mem_block (t : Fin cfg0.N) (i : S16384x2048.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v7).slice (win0_5.rect t)).set ↔ _
  rw [View.set_slice_whole, Rect.mem_set_unit]
  exact Iff.rfl

/-- Every index is in the block of the point whose block row and column are the coordinates' quotients by 512. -/
theorem covered (i : S16384x2048.Idx) : ∃ t : Fin cfg0.N, (cfg0.win 5).flush t = true ∧ i ∈ ((cfg0.win 5).blk t).view.set := by
  have hi0 : (i 0).val < 16384 := idx2_lt0 i
  have hi1 : (i 1).val < 2048 := idx2_lt1 i
  obtain ⟨t, ht⟩ := blockOnto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- So after the region the output array is the activation array. -/
theorem final (c : Dev nD) : (dats m 0 c).arrAt 5 cfg0.N = act (pts m c) (ctrs m c) (wids m c) :=
  (dats m 0 c).arrAt_eq_of_cover 5 (act (pts m c) (ctrs m c) (wids m c)) (fun t _ => flushed_eq m c t) (covered)

/-! ## The run -/

/-- Every weakly fair execution of the kernel program ends with the result array at the activation of the launched
    points, centres and widths, and the three arguments unchanged. -/
theorem run : θ_run defs (onTc (τ := τ) (main (F := Ideal))) ⟨m, fun _ => 0, ρ⟩ fun r => ∀ c : Dev nD,
      r.2.mem ((c : Thread nD τ).loc main_v7) = act (pts m c) (ctrs m c) (wids m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.RbfArray

end
-- ==== Proof.RbfFinite.lean ====
/-
  The precondition, read for the widths: `finite_inputs` is the conjunction of three `jnp.all(|·| < +∞)`, one per
  argument; its third conjunct says every logarithm of a width has absolute value below `+∞`, so it is a real number.
  (The activation's law needs nothing of the points or the centres.)
-/
import proofs.«166026_j32100585570665_1_alg».proof.Pre_finite_inputs
import proofs.«166026_j32100585570665_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.RbfFinite

open Cert.Pre_finite_inputs Cert.Pre_finite_inputs.Gen Idealize.ShloMosaic

/-- The rank-0 shape has one index. -/
instance : Subsingleton S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose absolute value compares below `+∞` is a real number. -/
theorem real_of_abs_lt_inf (x : EReal)
    (h : FloatOps.cmpf (F := Ideal) .olt (FloatOps.hostAbsf (φ := .f32) x) (FloatOps.ofBits .f32 0x7F800000#32) = 1#1) :
    ∃ r : ℝ, x = (r : EReal) := by
  have h1 : Ideal.cmp .olt (max x (-x)) (Ideal.ofBits .f32 0x7F800000#32) = 1#1 := h
  rw [ofBits_inf] at h1
  have h' : max x (-x) < ⊤ := by
    by_contra hn
    have h2 : Ideal.cmp .olt (max x (-x)) ⊤ = BitVec.ofBool false := by
      show BitVec.ofBool (decide (max x (-x) < ⊤)) = _
      rw [decide_eq_false hn]
    rw [h2] at h1
    exact absurd h1 (by decide)
  induction x using EReal.rec with
  | bot => simp at h'
  | coe r => exact ⟨r, rfl⟩
  | top => simp at h'

/-- Under `finite_inputs` every logarithm of a width is a real number. -/
theorem wids_real (x : FVec Ideal S16384x1024 .f32) (c : FVec Ideal S2048x1024 .f32) (l : FVec Ideal S2048 .f32)
    (h : fn (F := Ideal) x c l = fun _ => 1#1) (j : S2048.Idx) : ∃ r : ℝ, l j = (r : EReal) := by
  have h0 := congrFun h ValueIdx.ix0
  dsimp only [fn] at h0
  obtain ⟨-, h2⟩ := IntOp.andi_eq_one.1 h0
  exact real_of_abs_lt_inf (l j) (Host.reduce_andi_all _ _ reducesTo_S2048_S_d0 h_S_ _ h2 j)

end Cert.Pre_finite_inputs.RbfFinite

end
-- ==== Proof.lean ====
/-
  The certificate of a radial-basis layer: for 16384 points and 2048 centres of 1024 features and one logarithm of a
  width per centre, the Gaussian activation `exp (−d² / sigma²)` of the clamped squared distance
  `d² = max (|x|² + |c|² − 2 ⟨x, c⟩) 0`.

  The kernel program computes the two squared norms on the host, and in a 32 × 4 grid of 512 × 512 blocks the inner
  products on the matrix unit, then `exp ((0 − d²) · exp (−2 l))`. The reference computes `exp (−((√(d²) / exp l)²))`.
  Over the extended reals:
  * the kernel's result array is `Cert.Rbf.act` of the arguments (Proof/RbfBody.lean: the body's store at a coordinate;
    Proof/RbfArray.lean: the loaded blocks as rows of the arguments and of the host's norms, the blocks tiling the array);
  * the reference's is `Cert.Rbf.actDiv` (Proof/RbfRef.lean);
  * the two are one array wherever the widths' logarithms are real numbers (Proof/RbfSpec.lean: for `s ≥ 0`,
    `(0 − s) · e⁻²ˡ = −((√s / eˡ) · (√s / eˡ))`, at `s = +∞` included), which the precondition gives
    (Proof/RbfFinite.lean).
  The three frames are the generated ones (the reference's is its generated run with the result dropped); the idealization
  rewrote no operation, so `preserves` has nothing to state.
-/
import proofs.«166026_j32100585570665_1_alg».proof.Defs
import proofs.«166026_j32100585570665_1_alg».proof.Proof.Gen.Kernel
import proofs.«166026_j32100585570665_1_alg».proof.Proof.Gen.Kernel.Skeleton
import proofs.«166026_j32100585570665_1_alg».proof.Proof.Gen.Kernel.Launch
import proofs.«166026_j32100585570665_1_alg».proof.Proof.Gen.Kernel.Points
import proofs.«166026_j32100585570665_1_alg».proof.Proof.Gen.Kernel.Frame
import proofs.«166026_j32100585570665_1_alg».proof.Proof.Gen.KernelIdeal
import proofs.«166026_j32100585570665_1_alg».proof.Proof.Gen.KernelIdeal.Skeleton
import proofs.«166026_j32100585570665_1_alg».proof.Proof.Gen.KernelIdeal.Launch
import proofs.«166026_j32100585570665_1_alg».proof.Proof.Gen.KernelIdeal.Points
import proofs.«166026_j32100585570665_1_alg».proof.Proof.Gen.KernelIdeal.Frame
import proofs.«166026_j32100585570665_1_alg».proof.Proof.Gen.ReferenceIdeal
import proofs.«166026_j32100585570665_1_alg».proof.Proof.Gen.Pre_finite_inputs
import proofs.«166026_j32100585570665_1_alg».proof.Proof.Gen.KernelIdeal.Value
import proofs.«166026_j32100585570665_1_alg».proof.Proof.Gen.ReferenceIdeal.Run
import proofs.«166026_j32100585570665_1_alg».proof.Proof.Gen.ReferenceIdeal.Read
import proofs.«166026_j32100585570665_1_alg».proof.Proof.RbfSpec
import proofs.«166026_j32100585570665_1_alg».proof.Proof.RbfRef
import proofs.«166026_j32100585570665_1_alg».proof.Proof.RbfBody
import proofs.«166026_j32100585570665_1_alg».proof.Proof.RbfArray
import proofs.«166026_j32100585570665_1_alg».proof.Proof.RbfFinite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the activation array of the shared arguments: the kernel's with the squared distance scaled by
    `sigma⁻²`, the reference's with the distance divided by `sigma`, one array because the precondition makes every
    logarithm of a width a real number. -/
theorem algebraic : Cert.algebraic_KernelIdeal_ReferenceIdeal := by
  intro m ρ m' ρ' hpre hagree
  refine ⟨_, Cert.KernelIdeal.RbfArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact ((Cert.ReferenceIdeal.Read.val_main_v22_eq _ _ _).trans (Cert.ReferenceIdeal.RbfRef.result_eq _ _ _)).trans
    (Cert.Rbf.actDiv_eq_act _ _ _ fun j => Cert.Pre_finite_inputs.RbfFinite.wids_real _ _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
